-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x256 : Shape := ⟨2, ![16384, 256]⟩
abbrev S256x256 : Shape := ⟨2, ![256, 256]⟩
abbrev S256 : Shape := ⟨1, ![256]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16384x16384 .f32) (main_arg1 : FVec F S16384x256 .f32) (main_arg2 : FVec F S256x256 .f32) (main_arg3 : FVec F S256 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16384x16384 : Shape := ⟨2, ![16384, 16384]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 7
  | .vmem => 9
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S1x256, .f32⟩
  | .hbm, ⟨6, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S256x256_S256x256_1_0 : S256x256.Transposes [1, 0] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S16384x256.size a
  hwx0_4 : ∀ i : grid0.Coords, EltTy.bits .f32 = 32 ∨ (Rect.block (s := S16384x256) S1024x256.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S16384x256, .f32⟩
  | .hbm, ⟨5, _⟩ => ⟨S16384x256, .f32⟩
  | .hbm, ⟨6, _⟩ => ⟨S1x256, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384x256, .f32⟩
  | .hbm, ⟨11, _⟩ => ⟨S16384x256, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  dot_S16384x16384_S16384x256_S16384x256_1_0_0_1_n_n_wf : DotDims.WF S16384x16384 S16384x256 S16384x256 [1] [0] [0] [1] [] []
  dot_S16384x256_S256x256_S16384x256_1_1_0_0_n_n_wf : DotDims.WF S16384x256 S256x256 S16384x256 [1] [1] [0] [0] [] []

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x256_S16384x256_1_1_0_0_n_n : DotDims S16384x256 S256x256 S16384x256 where
  lhsContracting := [1]
  rhsContracting := [1]
  lhsNonContracting := [0]
  rhsNonContracting := [0]
  lhsBatch := []
  rhsBatch := []
  wf := dot_S16384x256_S256x256_S16384x256_1_1_0_0_n_n_wf

class Facts : Prop extends Facts₀ where

variable [Facts]
-- ==== Proof.BodyPieces.lean ====
/-
  What one grid point's body leaves behind, as the body's own arithmetic.

  The body of the fused layer does three things, depending on where the point sits in its row block's run of
  eight reduction steps. At the first step it zeroes the accumulator, then adds this step's product of the
  graph block and the feature block; at every later step it adds that product to what the step before left;
  and at the last step it also forms the output block from the finished accumulator. Each of the three control
  cases stores whole buffers, so what a buffer ends with is the last store's value, and every load reads a whole
  buffer, so it reads that buffer's contents. Written over the three arithmetic terms of the body
  (`k0_pay1`: the zero block; `k0_pay2 g f acc`: `acc + g · f`; `k0_pay3 acc w b`: `max (acc · w + b) 0`):

    first step   accumulator := k0_pay2 g f k0_pay1
    later steps  accumulator := k0_pay2 g f (what the step before left)
    last step    output      := k0_pay3 (k0_pay2 g f (what the step before left)) w b

  All of it holds for every float instance: no arithmetic is opened here.
-/
import proofs.«120181_j64029372449311_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

/-- Every load and store of the body starts at the origin of its buffer. -/
theorem origin : (![0, 0] : Fin 2 → Nat) = fun _ => 0 := funext fun a => by fin_cases a <;> rfl

/-- FIRST STEP of a row block's run: the accumulator is zeroed, read back, and left at `0 + g · f`. The
    read-back sees the zero block just stored, not what the buffer held before. -/
theorem acc_first (c : Dev nD) (i : grid0.Coords) (a2 : Memref sig .tc .vmem S1024x2048 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S1024x256 .f32) (h6 : a6.IsWhole) (a7 : Memref sig .tc .vmem S1024x256 .f32) (h7 : a7.IsWhole) (hc0 : cond0_0 i) (hc1 : ¬cond0_1 i) (x0 : Vec F S1024x2048 .f32) (x1 : Vec F S2048x256 .f32) (x2 : Vec F S256x256 .f32) (x3 : Vec F S1x256 .f32) :
    sout0_A_0 c i a2 h2 a3 h3 a4 h4 a5 h5 a6 h6 a7 h7 hc0 hc1 x0 x1 x2 x3 = k0_pay2 x0 x1 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x256) origin, View.readCov_unit_zero (S := S1024x256) _ origin]
  simp only [View.readAt_eq_ld, h2.read_unread, h3.read_unread, View.ld_unit_zero (S := S1024x2048) origin,
    View.ld_unit_zero (S := S2048x256) origin, View.ld_unit_zero (S := S1024x256) origin]

/-- A MIDDLE STEP: the accumulator, found holding `acc`, is left at `acc + g · f`. -/
theorem acc_middle (c : Dev nD) (i : grid0.Coords) (a2 : Memref sig .tc .vmem S1024x2048 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S1024x256 .f32) (h6 : a6.IsWhole) (a7 : Memref sig .tc .vmem S1024x256 .f32) (h7 : a7.IsWhole) (hc0 : ¬cond0_0 i) (hc1 : ¬cond0_1 i) (x0 : Vec F S1024x2048 .f32) (x1 : Vec F S2048x256 .f32) (x2 : Vec F S256x256 .f32) (x3 : Vec F S1x256 .f32) (xs0 : Vec F S1024x256 .f32) :
    sout0_B_0 c i a2 h2 a3 h3 a4 h4 a5 h5 a6 h6 a7 h7 hc0 hc1 x0 x1 x2 x3 xs0 = k0_pay2 x0 x1 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero origin]
  simp only [View.readAt_eq_ld, h2.read_unread, h3.read_unread, h7.read_unread, View.ld_unit_zero (S := S1024x2048) origin,
    View.ld_unit_zero (S := S2048x256) origin, View.ld_unit_zero (S := S1024x256) origin]

/-- THE LAST STEP leaves the accumulator the same way, at `acc + g · f` … -/
theorem acc_last (c : Dev nD) (i : grid0.Coords) (a2 : Memref sig .tc .vmem S1024x2048 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S1024x256 .f32) (h6 : a6.IsWhole) (a7 : Memref sig .tc .vmem S1024x256 .f32) (h7 : a7.IsWhole) (hc0 : ¬cond0_0 i) (hc1 : cond0_1 i) (x0 : Vec F S1024x2048 .f32) (x1 : Vec F S2048x256 .f32) (x2 : Vec F S256x256 .f32) (x3 : Vec F S1x256 .f32) (xs0 : Vec F S1024x256 .f32) :
    sout0_C_0 c i a2 h2 a3 h3 a4 h4 a5 h5 a6 h6 a7 h7 hc0 hc1 x0 x1 x2 x3 xs0 = k0_pay2 x0 x1 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero origin]
  simp only [View.readAt_eq_ld, h2.read_unread, h3.read_unread, h7.read_unread, View.ld_unit_zero (S := S1024x2048) origin,
    View.ld_unit_zero (S := S2048x256) origin, View.ld_unit_zero (S := S1024x256) origin]

/-- … and stores the output block: `max (A · w + b) 0` of the accumulator `A = acc + g · f` it has just
    finished (the load of the accumulator sees this step's own store), the weight block and the bias row. -/
theorem out_last (c : Dev nD) (i : grid0.Coords) (a2 : Memref sig .tc .vmem S1024x2048 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S1024x256 .f32) (h6 : a6.IsWhole) (a7 : Memref sig .tc .vmem S1024x256 .f32) (h7 : a7.IsWhole) (hc0 : ¬cond0_0 i) (hc1 : cond0_1 i) (x0 : Vec F S1024x2048 .f32) (x1 : Vec F S2048x256 .f32) (x2 : Vec F S256x256 .f32) (x3 : Vec F S1x256 .f32) (xs0 : Vec F S1024x256 .f32) :
    out0_C_4 c i a2 h2 a3 h3 a4 h4 a5 h5 a6 h6 a7 h7 hc0 hc1 x0 x1 x2 x3 xs0 = k0_pay3 (k0_pay2 x0 x1 xs0) x2 x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero origin]
  simp only [View.readAt_eq_ld, h2.read_unread, h3.read_unread, h4.read_unread, h5.read_unread, h7.read_unread,
    View.readCov_unit_zero (S := S1024x256) _ origin, View.ld_unit_zero (S := S1024x2048) origin,
    View.ld_unit_zero (S := S2048x256) origin, View.ld_unit_zero (S := S1024x256) origin,
    View.ld_unit_zero (S := S256x256) origin, View.ld_unit_zero (S := S1x256) origin]

end Cert.KernelIdeal.Body

end
-- ==== Proof.PayloadsIdeal.lean ====
/-
  The body's three arithmetic terms read at one index, over the extended reals.

  At the ideal instance a change of float format is the identity, a matrix product into a zero accumulator is the
  plain sum of products over the contraction index, and the rectifier is `max · 0`. So, at row `r` and column
  `j` of a [1024, 256] block:

    the zero block                      0
    one accumulation step               acc[r, j] + ∑ k < 2048, g[r, k] · f[k, j]
    the output from the accumulator     max ((∑ i < 256, A[r, i] · w[i, j]) + b[0, j]) 0

  The contraction sums are re-indexed from the dot's one-axis contraction index to `Fin 2048` / `Fin 256`
  through the library's bijection; the dot's operand indices are decided axis by axis.
-/
import proofs.«120181_j64029372449311_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.BodyIdeal

open Cert.KernelIdeal Cert.KernelIdeal.Gen

/-! ## The graph-times-features product of one reduction step -/

theorem gf_lhs_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem gf_lhs_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem gf_rhs_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem gf_rhs_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The step's product at (r, j): the sum over the 2048 contraction indices of the block. -/
theorem gf_apply (l : FVec Ideal S1024x2048 .bf16) (rt : FVec Ideal S2048x256 .bf16) (r : Fin 1024) (j : Fin 256) :
    matmul dot_S1024x2048_S2048x256_S1024x256_1_0_0_1_n_n none l rt (constant S1024x256 .f32 0x00000000#32) (ix2 r j)
      = ∑ k : Fin 2048, l (ix2 r k) * rt (ix2 k j) := by
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 r j) ((contrEquiv1 dot_S1024x2048_S2048x256_S1024x256_1_0_0_1_n_n 2048 rfl rfl).symm k) = ix2 r k := funext fun a => Fin.ext (by
    match a with
    | ⟨0, _⟩ => exact gf_lhs_0 _ _
    | ⟨1, _⟩ => exact (gf_lhs_1 _ _).trans hk)
  have er : dot_S1024x2048_S2048x256_S1024x256_1_0_0_1_n_n.rhsIdx (ix2 r j) ((contrEquiv1 dot_S1024x2048_S2048x256_S1024x256_1_0_0_1_n_n 2048 rfl rfl).symm k) = ix2 k j := funext fun a => Fin.ext (by
    match a with
    | ⟨0, _⟩ => exact (gf_rhs_0 _ _).trans hk
    | ⟨1, _⟩ => exact gf_rhs_1 _ _)
  rw [el, er]

/-! ## The accumulator-times-weights product of the last step -/

theorem aw_lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem aw_lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem aw_rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem aw_rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The last step's product at (r, j): the sum over the 256 features. -/
theorem aw_apply (l : FVec Ideal S1024x256 .bf16) (rt : FVec Ideal S256x256 .bf16) (r : Fin 1024) (j : Fin 256) :
    matmul dot_S1024x256_S256x256_S1024x256_1_0_0_1_n_n none l rt (constant S1024x256 .f32 0x00000000#32) (ix2 r j)
      = ∑ k : Fin 256, l (ix2 r k) * rt (ix2 k j) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r j) ((contrEquiv1 dot_S1024x256_S256x256_S1024x256_1_0_0_1_n_n 256 rfl rfl).symm k) = ix2 r k := funext fun a => Fin.ext (by
    match a with
    | ⟨0, _⟩ => exact aw_lhs_0 _ _
    | ⟨1, _⟩ => exact (aw_lhs_1 _ _).trans hk)
  have er : dot_S1024x256_S256x256_S1024x256_1_0_0_1_n_n.rhsIdx (ix2 r j) ((contrEquiv1 dot_S1024x256_S256x256_S1024x256_1_0_0_1_n_n 256 rfl rfl).symm k) = ix2 k j := funext fun a => Fin.ext (by
    match a with
    | ⟨0, _⟩ => exact (aw_rhs_0 _ _).trans hk
    | ⟨1, _⟩ => exact aw_rhs_1 _ _)
  rw [el, er]

/-! ## The three terms -/

/-- The zero block is zero everywhere. -/
theorem zero_apply (y : S1024x256.Idx) : k0_pay1 (F := Ideal) y = 0 := by
  unfold k0_pay1
  rw [shapeCast_self]
  show Ideal.ofBits .f32 0x00000000#32 = 0
  exact Ideal.ofBits_zero_f32

/-- One accumulation step at (r, j). -/
theorem step_apply (g : Vec Ideal S1024x2048 .f32) (f : Vec Ideal S2048x256 .f32) (acc : Vec Ideal S1024x256 .f32)
    (r : Fin 1024) (j : Fin 256) :
    k0_pay2 g f acc (ix2 r j) = acc (ix2 r j) + ∑ k : Fin 2048, g (ix2 r k) * f (ix2 k j) := by
  unfold k0_pay2
  rw [shapeCast_self, addf_apply, gf_apply]
  rfl

/-- The output block from the finished accumulator at (r, j). -/
theorem out_apply (A : Vec Ideal S1024x256 .f32) (w : Vec Ideal S256x256 .f32) (b : Vec Ideal S1x256 .f32)
    (r : Fin 1024) (j : Fin 256) :
    k0_pay3 A w b (ix2 r j) = max ((∑ i : Fin 256, A (ix2 r i) * w (ix2 i j)) + b (ix2 (0 : Fin 1) j)) 0 := by
  unfold k0_pay3
  rw [maximumf_apply, addf_apply, aw_apply, broadcast_apply,
    broadcastTo_apply _ broadcasts_S1x256_S1024x256 (ix2 r j) (ix2 (0 : Fin 1) j) (fun a => match a with
      | ⟨0, _⟩ => by show (0 : ℕ) = if (1 : ℕ) = 1 then 0 else _; rw [if_pos rfl]
      | ⟨1, _⟩ => by show j.val = if (256 : ℕ) = 1 then 0 else j.val; rw [if_neg (by decide)]),
    shapeCast_self, shapeCast_self]
  show max _ (Ideal.ofBits .f32 0x00000000#32) = _
  rw [Ideal.ofBits_zero_f32]
  rfl

end Cert.KernelIdeal.BodyIdeal

end
-- ==== Proof.GraphConvSpec.lean ====
/-
  The dense graph-convolution layer as ONE function of its four argument arrays, over the extended reals:

      out[n, o] = max (∑ i, (∑ k, graph[n, k] · feat[k, i]) · W[o, i] + b[o]) 0

  (`agg` is the inner sum, the neighbour aggregation `graph · feat`; `layer` is the linear map, the bias and
  the rectifier on top of it), and the one law of sums a K-blocked accumulation needs: a sum over the 16384
  contraction indices is the sum, over the 8 consecutive blocks of 2048 indices, of each block's sum. The law
  is re-indexing along `Fin 8 × Fin 2048 ≃ Fin 16384` and holds in every commutative additive monoid, so it
  asks nothing about the entries being finite.
-/
import Idealize.ShloMosaic.PureOps.Ideal
import Idealize.ShloMosaic.Lib.ValueIdx

noncomputable section

open scoped BigOperators

namespace Cert.GraphConv

open Idealize.ShloMosaic Idealize.ShloMosaic.ValueIdx

/-- The contraction index `k` of block `s` (taken mod 8 so that the index is in range for every natural `s`)
    at offset `k` inside the block: `2048 · s + k`. -/
abbrev kIdx (s : ℕ) (k : Fin 2048) : Fin 16384 := ⟨2048 * (s % 8) + k.val, by have := k.isLt; omega⟩

/-- A sum over the 16384 contraction indices, block by block: 8 blocks of 2048. -/
theorem sum_eq_sum_blocks {M : Type*} [AddCommMonoid M] (φ : Fin 16384 → M) :
    ∑ k : Fin 16384, φ k = ∑ s ∈ Finset.range 8, ∑ k : Fin 2048, φ (kIdx s k) := by
  have e : ∑ k : Fin 16384, φ k = ∑ p : Fin 8 × Fin 2048, φ (finProdFinEquiv p) :=
    (Equiv.sum_comp (finProdFinEquiv (m := 8) (n := 2048)) φ).symm
  rw [e, Fintype.sum_prod_type, Finset.sum_range]
  refine Finset.sum_congr rfl fun s _ => Finset.sum_congr rfl fun k _ => congrArg φ (Fin.ext ?_)
  show (finProdFinEquiv (s, k)).val = 2048 * (s.val % 8) + k.val
  rw [finProdFinEquiv_apply_val]
  have := s.isLt
  show k.val + 2048 * s.val = _
  omega

/-- The neighbour aggregation `graph · feat` at row `n`, feature `i`. -/
def agg (g : (⟨2, ![16384, 16384]⟩ : Shape).Idx → EReal) (f : (⟨2, ![16384, 256]⟩ : Shape).Idx → EReal)
    (n : Fin 16384) (i : Fin 256) : EReal :=
  ∑ k : Fin 16384, g (ix2 n k) * f (ix2 k i)

/-- The aggregation summed block by block along the contraction axis. -/
theorem agg_eq_sum_blocks (g : (⟨2, ![16384, 16384]⟩ : Shape).Idx → EReal)
    (f : (⟨2, ![16384, 256]⟩ : Shape).Idx → EReal) (n : Fin 16384) (i : Fin 256) :
    agg g f n i = ∑ s ∈ Finset.range 8, ∑ k : Fin 2048, g (ix2 n (kIdx s k)) * f (ix2 (kIdx s k) i) :=
  sum_eq_sum_blocks fun k => g (ix2 n k) * f (ix2 k i)

/-- The whole layer: `max (agg · Wᵀ + b) 0`, index by index. -/
def layer (g : (⟨2, ![16384, 16384]⟩ : Shape).Idx → EReal) (f : (⟨2, ![16384, 256]⟩ : Shape).Idx → EReal)
    (W : (⟨2, ![256, 256]⟩ : Shape).Idx → EReal) (b : (⟨1, ![256]⟩ : Shape).Idx → EReal) :
    (⟨2, ![16384, 256]⟩ : Shape).Idx → EReal := fun j =>
  max ((∑ i : Fin 256, agg g f (j 0) i * W (ix2 (j 1) i)) + b (ix1 (j 1))) 0

end Cert.GraphConv

end
-- ==== Proof.BlockReads.lean ====
/-
  Where each block of the pipeline sits in the argument arrays.

  The grid has 16 × 8 points; point `t` is reduction step `t % 8` of row block `t / 8`. Read at an index:

    the graph block        g_t[r, k]  = graph[1024 · (t / 8) + r, 2048 · (t % 8) + k]
    the feature block      f_t[k, j]  = feat[2048 · (t % 8) + k, j]
    the weight block       w_t[i, j]  = W[j, i]      (the whole of Wᵀ, which the host transposes before the call)
    the bias block         b_t[0, j]  = b[j]         (the whole of b, which the host reshapes to one row)

  and the output block of point `t` is rows `1024 · (t / 8) …` of the result. A block's coordinate is always
  block index × block size + coordinate inside the block; the block indices are decided once over the grid.
  Everything here holds at every float instance.
-/
import proofs.«120181_j64029372449311_1_alg».proof.Proof.Gen.KernelIdeal.Value
import proofs.«120181_j64029372449311_1_alg».proof.Proof.GraphConvSpec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.GraphConv

variable {F : FTy → Type} [FloatOps F]
variable (m : (ℓ : Loc nD τ sig) → Buf (Elt F) ℓ)

/-- The grid has 128 points. -/
theorem lt128 (t : Fin cfg0.N) : t.val < 128 := lt_of_lt_of_eq t.isLt (show cfg0.N = 128 from N_0)

/-- Row `r` of the row block that point `t` works on. -/
abbrev rowOf (t : Fin cfg0.N) (r : Fin 1024) : Fin 16384 :=
  ⟨1024 * (t.val / 8) + r.val, by have := lt128 t; have := r.isLt; omega⟩

/-! ## The block indices, decided over the grid -/

theorem graph_index : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem feat_index : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem weight_index : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem bias_index : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem out_index : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-! ## What the host wrote before the call -/

/-- The weight operand is the transpose of `W`. -/
theorem weights_entry (c : Dev nD) :
    (V m c main_v0 : S256x256.Idx → Elt F .f32)
      = transpose S256x256 [1, 0] (m ((c : Thread nD τ).loc main_arg2)) transposes_S256x256_S256x256_1_0 := by
  dsimp only [V, hostOps0]; after_results

/-- The bias operand is `b` laid out as one row. -/
theorem bias_entry (c : Dev nD) :
    (V m c main_v1 : S1x256.Idx → Elt F .f32)
      = shapeCast S1x256 (m ((c : Thread nD τ).loc main_arg3)) shapeCasts_S256_S1x256 := by
  dsimp only [V, hostOps0]; after_results; rfl

/-! ## The blocks read at an index -/

/-- The graph block of point `t` at (r, k). -/
theorem graph_block (c : Dev nD) (t : Fin cfg0.N) (r : Fin 1024) (k : Fin 2048) :
    (iblk m c 0 t : Vec F S1024x2048 .f32) (ix2 r k)
      = m ((c : Thread nD τ).loc main_arg0) (ix2 (rowOf t r) (kIdx t.val k)) := by
  have hi := graph_index t
  unfold iblk
  rw [View.read_apply]
  show V m c main_arg0 _ = _
  rw [V_main_arg0]
  refine congrArg _ (funext fun a => Fin.ext ?_)
  match a with
  | ⟨0, _⟩ => show win0_0.index t 0 * 1024 + 1 * r.val = 1024 * (t.val / 8) + r.val; rw [hi.1]; omega
  | ⟨1, _⟩ => show win0_0.index t 1 * 2048 + 1 * k.val = 2048 * (t.val % 8) + k.val; rw [hi.2]; omega

/-- The feature block of point `t` at (k, j). -/
theorem feat_block (c : Dev nD) (t : Fin cfg0.N) (k : Fin 2048) (j : Fin 256) :
    (iblk m c 1 t : Vec F S2048x256 .f32) (ix2 k j)
      = m ((c : Thread nD τ).loc main_arg1) (ix2 (kIdx t.val k) j) := by
  have hi := feat_index t
  unfold iblk
  rw [View.read_apply]
  show V m c main_arg1 _ = _
  rw [V_main_arg1]
  refine congrArg _ (funext fun a => Fin.ext ?_)
  match a with
  | ⟨0, _⟩ => show win0_1.index t 0 * 2048 + 1 * k.val = 2048 * (t.val % 8) + k.val; rw [hi.1]; omega
  | ⟨1, _⟩ => show win0_1.index t 1 * 256 + 1 * j.val = j.val; rw [hi.2]; omega

/-- The weight block at (i, j) is `W[j, i]`, at every point. -/
theorem weight_block (c : Dev nD) (t : Fin cfg0.N) (i j : Fin 256) :
    (iblk m c 2 t : Vec F S256x256 .f32) (ix2 i j) = m ((c : Thread nD τ).loc main_arg2) (ix2 j i) := by
  have hi := weight_index t
  unfold iblk
  rw [View.read_apply]
  show V m c main_v0 _ = _
  rw [weights_entry]
  refine transpose_apply _ _ _ _ (ix2 j i) (fun b => ?_)
  match b with
  | ⟨0, _⟩ => show i.val = win0_2.index t 0 * 256 + 1 * i.val; rw [hi.1]; omega
  | ⟨1, _⟩ => show j.val = win0_2.index t 1 * 256 + 1 * j.val; rw [hi.2]; omega

/-- The bias block at (0, j) is `b[j]`, at every point. -/
theorem bias_block (c : Dev nD) (t : Fin cfg0.N) (j : Fin 256) :
    (iblk m c 3 t : Vec F S1x256 .f32) (ix2 (0 : Fin 1) j) = m ((c : Thread nD τ).loc main_arg3) (ix1 j) := by
  have hi := bias_index t
  unfold iblk
  rw [View.read_apply]
  show V m c main_v1 _ = _
  rw [bias_entry]
  refine shapeCast_apply _ _ _ (ix1 j) ?_
  rw [Shape.rowMajor_val_one, Shape.rowMajor_val_two]
  show j.val = (win0_3.index t 0 * 1 + 1 * 0) * 256 + (win0_3.index t 1 * 256 + 1 * j.val)
  rw [hi.1, hi.2]; omega

end Cert.KernelIdeal.Blocks

end
-- ==== Proof.AccumulatorFold.lean ====
/-
  The accumulator, summed.

  Over a row block's run of eight reduction steps the accumulator is reset to `0 + g₀ · f₀` at the first step and
  gains `gₙ · fₙ` at each later one, so after step `s` it holds `0` plus the sum of the first `s + 1` steps'
  partial products (the library's fold of an additive step, unrolled). Each partial product is a sum over one block
  of 2048 contraction indices, so at the run's last step the accumulator is the sum over all eight blocks, which is
  the sum over all 16384 contraction indices: row `1024 · q + r` of `graph · feat`. Only associativity and
  commutativity of the extended reals' addition are used; nothing is asked of the entries.
-/
import proofs.«120181_j64029372449311_1_alg».proof.Proof.BodyPieces
import proofs.«120181_j64029372449311_1_alg».proof.Proof.PayloadsIdeal
import proofs.«120181_j64029372449311_1_alg».proof.Proof.BlockReads
import Idealize.ShloMosaic.Lib.Pipeline.Value

noncomputable section

open scoped BigOperators
open Idealize.ShloMosaic Idealize.ShloMosaic.TcCoe Idealize.SL.Sem Idealize.ShloMosaic.ValueIdx

namespace Cert.KernelIdeal.Fold

open Cert.KernelIdeal Cert.KernelIdeal.Gen Cert.GraphConv Cert.KernelIdeal.Blocks

variable (m : (ℓ : Loc nD τ sig) → Buf (Elt Ideal) ℓ)

/-- What the step at point `n` leaves in the accumulator over what the step before left (`acc`): its partial
    product added to `acc`, or to the zero block when `n` opens a run. -/
theorem step_eq (c : Dev nD) (n : ℕ) (hb : n < cfg0.N) (acc : Vec Ideal S1024x256 .f32) :
    Value.scAt0_0 m c n hb acc
      = k0_pay2 (iblk m c 0 ⟨n, hb⟩) (iblk m c 1 ⟨n, hb⟩) (if n % 8 = 0 then k0_pay1 (F := Ideal) else acc) := by
  unfold Value.scAt0_0
  by_cases h0 : n % 8 = 0
  · have h1 : ¬n % 8 = 7 := by omega
    rw [dif_pos h0, dif_neg h1, if_pos h0]
    exact Body.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  · by_cases h1 : n % 8 = 7
    · rw [dif_neg h0, dif_pos h1, if_neg h0]
      exact Body.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
    · rw [dif_neg h0, dif_neg h1, if_neg h0]
      exact Body.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- The graph block and the feature block of a point, named at their literal vector types (so that their entries
    multiply as extended reals). -/
abbrev gblk (c : Dev nD) (t : Fin cfg0.N) : Vec Ideal S1024x2048 .f32 := iblk m c 0 t
abbrev fblk (c : Dev nD) (t : Fin cfg0.N) : Vec Ideal S2048x256 .f32 := iblk m c 1 t

/-- The partial product the step at point `n` adds, at an index of its block: the sum over the step's 2048
    contraction indices (zero past the grid, where nothing reads it). -/
def addend (c : Dev nD) (n : ℕ) (y : S1024x256.Idx) : EReal :=
  if h : n < cfg0.N then
    ∑ k : Fin 2048, gblk m c ⟨n, h⟩ (ix2 (y 0) k) * fblk m c ⟨n, h⟩ (ix2 k (y 1))
  else 0

/-- The accumulator after point `t`: zero plus the partial products of its run's steps up to `t`. -/
theorem acc_at (c : Dev nD) (t : Fin cfg0.N) (y : S1024x256.Idx) :
    (outsAt0 m c t.val t.isLt).2 y
      = 0 + ∑ s ∈ Finset.range (t.val % 8 + 1), addend m c (8 * (t.val / 8) + s) y := by
  rw [Value.soutsAt0_0_eq]
  refine Pipeline.accAt_add_apply (ι := S1024x256.Idx) (β := EReal) _ _ (fun _ => 0) (addend m c) (8 * (t.val / 8)) 7
    ?_ ?_ (t.val % 8) (by omega) _ y
  · intro h i
    obtain ⟨r, j, rfl⟩ : ∃ (r : Fin 1024) (j : Fin 256), i = ix2 r j := ⟨i 0, i 1, eq_ix2 i⟩
    show Value.scAt0_0 m c (8 * (t.val / 8)) h _ (ix2 r j) = _
    rw [step_eq, if_pos (by omega)]
    refine (BodyIdeal.step_apply (iblk m c 0 ⟨8 * (t.val / 8), h⟩) (iblk m c 1 ⟨8 * (t.val / 8), h⟩) (k0_pay1 (F := Ideal)) r j).trans ?_
    rw [BodyIdeal.zero_apply]
    unfold addend
    rw [dif_pos h]
  · intro n h acc i hlt hle
    obtain ⟨r, j, rfl⟩ : ∃ (r : Fin 1024) (j : Fin 256), i = ix2 r j := ⟨i 0, i 1, eq_ix2 i⟩
    rw [step_eq, if_neg (by omega)]
    refine (BodyIdeal.step_apply (iblk m c 0 ⟨n, h⟩) (iblk m c 1 ⟨n, h⟩) acc r j).trans ?_
    unfold addend
    rw [dif_pos h]

/-- At the last step of a row block's run the accumulator holds that row block of `graph · feat`. -/
theorem acc_full (c : Dev nD) (t : Fin cfg0.N) (h7 : t.val % 8 = 7) (r : Fin 1024) (i : Fin 256) :
    (outsAt0 m c t.val t.isLt).2 (ix2 r i)
      = agg (m ((c : Thread nD τ).loc main_arg0)) (m ((c : Thread nD τ).loc main_arg1)) (rowOf t r) i := by
  have hN := lt128 t
  rw [acc_at, h7, zero_add, agg_eq_sum_blocks]
  refine Finset.sum_congr rfl fun s hs => ?_
  have hs8 : s < 8 := Finset.mem_range.mp hs
  have hn : 8 * (t.val / 8) + s < cfg0.N :=
    lt_of_lt_of_eq (by omega : 8 * (t.val / 8) + s < 128) (show cfg0.N = 128 from N_0).symm
  unfold addend
  rw [dif_pos hn]
  show ∑ k : Fin 2048, gblk m c ⟨8 * (t.val / 8) + s, hn⟩ (ix2 r k) * fblk m c ⟨8 * (t.val / 8) + s, hn⟩ (ix2 k i) = _
  refine Finset.sum_congr rfl fun k _ => ?_
  have hk := k.isLt
  have e1 : rowOf ⟨8 * (t.val / 8) + s, hn⟩ r = rowOf t r := Fin.ext (by
    show 1024 * ((8 * (t.val / 8) + s) / 8) + r.val = 1024 * (t.val / 8) + r.val; omega)
  have e2 : kIdx (8 * (t.val / 8) + s) k = kIdx s k := Fin.ext (by
    show 2048 * ((8 * (t.val / 8) + s) % 8) + k.val = 2048 * (s % 8) + k.val; omega)
  have hg : gblk m c ⟨8 * (t.val / 8) + s, hn⟩ (ix2 r k)
      = m ((c : Thread nD τ).loc main_arg0) (ix2 (rowOf t r) (kIdx s k)) :=
    (graph_block m c ⟨8 * (t.val / 8) + s, hn⟩ r k).trans (by rw [e1, e2])
  have hf : fblk m c ⟨8 * (t.val / 8) + s, hn⟩ (ix2 k i)
      = m ((c : Thread nD τ).loc main_arg1) (ix2 (kIdx s k) i) :=
    (feat_block m c ⟨8 * (t.val / 8) + s, hn⟩ k i).trans (by rw [e2])
  rw [hg, hf]

end Cert.KernelIdeal.Fold

end
-- ==== Proof.LayerValue.lean ====
/-
  The idealized kernel's result array is the layer of its arguments.

  Only the last step of a row block's run writes the output block back. There the body stores
  `max (A · w + b) 0` of the accumulator `A` it has just finished, which is that row block of `graph · feat`
  (the accumulator, summed); the weight block is all of `Wᵀ` and the bias block all of `b`. So what point `t`
  writes back is rows `1024 · (t / 8) … + 1023` of `layer graph feat W b`, read through the block. The sixteen row
  blocks tile the array (row `n` lies in the block of row block `n / 1024`, written at its eighth step), so the
  array ends holding `layer` everywhere.
-/
import proofs.«120181_j64029372449311_1_alg».proof.Proof.AccumulatorFold

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.GraphConv Cert.KernelIdeal.Blocks

variable (m : (ℓ : Loc nD τ sig) → Buf (Elt Ideal) ℓ) (ρ : Dev nD → PrngReg)

/-- The layer of the argument arrays as launched, as contents of the result array. -/
abbrev result (c : Dev nD) : Buf (Elt Ideal) ((c : Thread nD τ).loc main_v2) :=
  layer (m ((c : Thread nD τ).loc main_arg0)) (m ((c : Thread nD τ).loc main_arg1))
    (m ((c : Thread nD τ).loc main_arg2)) (m ((c : Thread nD τ).loc main_arg3))

/-- Position (r, j) of point `t`'s output block is position (1024 · (t / 8) + r, j) of the array. -/
theorem out_emb (t : Fin cfg0.N) (r : Fin 1024) (j : Fin 256) :
    ((cfg0.win 4).blk t).view.emb (ix2 r j) = ix2 (rowOf t r) j := by
  have hi := out_index t
  funext a; apply Fin.ext
  match a with
  | ⟨0, _⟩ => show win0_4.index t 0 * 1024 + 1 * r.val = 1024 * (t.val / 8) + r.val; rw [hi.1]; omega
  | ⟨1, _⟩ => show win0_4.index t 1 * 256 + 1 * j.val = j.val; rw [hi.2]; omega

/-- The accumulator a last step finishes is what it leaves in the scratch. -/
theorem acc_finished (c : Dev nD) (t : Fin cfg0.N) (h0 : ¬t.val % 8 = 0) (h7 : t.val % 8 = 7) :
    k0_pay2 (iblk m c 0 t) (iblk m c 1 t) (outsAt0 m c (t.val - 1) (Nat.lt_of_le_of_lt (Nat.sub_le _ _) t.isLt)).2
      = (outsAt0 m c t.val t.isLt).2 := by
  rw [outsAt0_C m c t h0 h7]
  dsimp only
  exact (Body.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) (outsAt0 m c (t.val - 1) (Nat.lt_of_le_of_lt (Nat.sub_le _ _) t.isLt)).2).symm

/-- WHAT A LAST STEP WRITES BACK is its block of the layer. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have h0 : ¬t.val % 8 = 0 := by omega
  rw [Value.flushed4_C m c t h0 h7,
    Body.out_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) (outsAt0 m c (t.val - 1) (Nat.lt_of_le_of_lt (Nat.sub_le _ _) t.isLt)).2,
    acc_finished m c t h0 h7]
  funext y
  obtain ⟨r, j, rfl⟩ : ∃ (r : Fin 1024) (j : Fin 256), y = ix2 r j := ⟨y 0, y 1, eq_ix2 y⟩
  rw [View.read_apply, out_emb]
  show k0_pay3 (outsAt0 m c t.val t.isLt).2 (iblk m c 2 t) (iblk m c 3 t) (ix2 r j) = _
  refine (BodyIdeal.out_apply (outsAt0 m c t.val t.isLt).2 (iblk m c 2 t) (iblk m c 3 t) r j).trans ?_
  rw [bias_block m c t j]
  show _ = max ((∑ i : Fin 256, agg _ _ (rowOf t r) i * m ((c : Thread nD τ).loc main_arg2) (ix2 j i))
    + m ((c : Thread nD τ).loc main_arg3) (ix1 j)) 0
  refine congrArg (fun s => max (s + _) 0) (Finset.sum_congr rfl fun i _ => ?_)
  rw [Fold.acc_full m c t h7 r i, weight_block m c t i j]

/-- An index of the array is in point `t`'s block iff each coordinate is in the block's range on its axis. -/
theorem mem_blk (t : Fin cfg0.N) (i : S16384x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v2).slice (win0_4.rect t)).set ↔ _
  rw [View.set_slice_whole, Rect.mem_set_unit]
  exact Iff.rfl

/-- Every index of the array is in the block some last step writes back: row `n` in that of row block `n / 1024`. -/
theorem cover (i : S16384x256.Idx) :
    ∃ t : Fin cfg0.N, (cfg0.win 4).flush t = true ∧ i ∈ ((cfg0.win 4).blk t).view.set := by
  have hi0 : (i 0).val < 16384 := (i 0).isLt
  have hi1 : (i 1).val < 256 := (i 1).isLt
  have hN : cfg0.N = 128 := N_0
  let t : Fin cfg0.N := ⟨8 * ((i 0).val / 1024) + 7, lt_of_lt_of_eq (by omega : 8 * ((i 0).val / 1024) + 7 < 128) hN.symm⟩
  have hi := out_index t
  have htv : t.val = 8 * ((i 0).val / 1024) + 7 := rfl
  refine ⟨t, (flush0_4 t).mpr (by rw [htv]; omega), ?_⟩
  rw [mem_blk]
  intro a
  match a with
  | ⟨0, _⟩ => show win0_4.index t 0 * 1024 ≤ (i 0).val ∧ (i 0).val < win0_4.index t 0 * 1024 + 1024; rw [hi.1, htv]; omega
  | ⟨1, _⟩ => show win0_4.index t 1 * 256 ≤ (i 1).val ∧ (i 1).val < win0_4.index t 1 * 256 + 256; rw [hi.2]; omega

/-- THE RESULT ARRAY after the run is the layer of the arguments. -/
theorem final (c : Dev nD) : (dats m 0 c).arrAt 4 cfg0.N = result m c :=
  (dats m 0 c).arrAt_eq_of_cover 4 (result m c) (flushed_eq m c) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.ReferenceLayer.lean ====
/-
  The idealized reference computes the layer.

  The reference is two host matrix products, a bias broadcast, an addition and a rectifier. Read one operation at
  a time at an index (n, o), at the ideal instance: the second product is the sum over the 256 features `i` of the first
  product at (n, i) times `W[o, i]`; the first product at (n, i) is the sum over the 16384 nodes `k` of
  `graph[n, k] · feat[k, i]`, which is `agg graph feat n i`; the two broadcasts of the bias read `b[o]`; the
  rectifier's constant is zero. That is `layer graph feat W b` at (n, o), term for term.
-/
import proofs.«120181_j64029372449311_1_alg».proof.Proof.Gen.ReferenceIdeal.Read
import proofs.«120181_j64029372449311_1_alg».proof.Proof.GraphConvSpec
import Idealize.ShloMosaic.Lib.ValueIdx
import Idealize.ShloMosaic.PureOps.Ideal.Laws

noncomputable section

open scoped BigOperators
open Idealize.ShloMosaic Idealize.ShloMosaic.ValueIdx

namespace Cert.ReferenceIdeal.Layer

open Cert.ReferenceIdeal Cert.ReferenceIdeal.Gen Cert.ReferenceIdeal.Read Cert.GraphConv

/-- The reference's result term is the layer of its four arguments. -/
theorem reference_eq (g : (⟨S16384x16384, .f32⟩ : BufTy).Contents (Elt Ideal)) (f : (⟨S16384x256, .f32⟩ : BufTy).Contents (Elt Ideal))
    (W : (⟨S256x256, .f32⟩ : BufTy).Contents (Elt Ideal)) (b : (⟨S256, .f32⟩ : BufTy).Contents (Elt Ideal)) :
    val_main_v5 (F := Ideal) g f W b = layer g f W b := by
  funext i
  rw [val_main_v5_apply, val_main_v4_apply, val_main_v1_apply, val_main_v3_apply, val_main_v2_apply,
    val_main_call0_v0_apply, val_main_call0_cst_apply]
  have eb : idx_main_v2 (idx_main_v3 i) = ix1 (i 1) := funext fun a => Fin.ext (by match a with | ⟨0, _⟩ => rfl)
  have hagg : ∀ k : Fin 256, val_main_v0 (F := Ideal) g f (lidx_main_v1 i k) = agg g f (i 0) k := fun k => by
    rw [val_main_v0_apply]
    unfold agg
    refine Finset.sum_congr rfl fun k' _ => ?_
    have eg : lidx_main_v0 (lidx_main_v1 i k) k' = ix2 (i 0) k' :=
      funext fun a => Fin.ext (by match a with | ⟨0, _⟩ => rfl | ⟨1, _⟩ => rfl)
    have ef : ridx_main_v0 (lidx_main_v1 i k) k' = ix2 k' k :=
      funext fun a => Fin.ext (by match a with | ⟨0, _⟩ => rfl | ⟨1, _⟩ => rfl)
    rw [eg, ef]
    rfl
  have hsum : (∑ k : Fin 256, val_main_v0 (F := Ideal) g f (lidx_main_v1 i k) * W (ridx_main_v1 i k))
      = ∑ k : Fin 256, agg g f (i 0) k * W (ix2 (i 1) k) := Finset.sum_congr rfl fun k _ => by
    have ew : ridx_main_v1 i k = ix2 (i 1) k := funext fun a => Fin.ext (by match a with | ⟨0, _⟩ => rfl | ⟨1, _⟩ => rfl)
    rw [hagg k, ew]
    rfl
  rw [hsum, eb]
  show max (_ + _) (Ideal.ofBits .f32 0x00000000#32) = _
  rw [Ideal.ofBits_zero_f32]
  rfl

end Cert.ReferenceIdeal.Layer

end
-- ==== Proof.lean ====
/-
  A fused dense graph-convolution layer against its jnp reference, over the extended reals.

  Both programs compute, at node `n` and output feature `o`,

      max (∑ i, (∑ k, graph[n, k] · feat[k, i]) · W[o, i] + b[o]) 0.

  The reference does it with two whole matrix products, a bias broadcast and a rectifier. The kernel walks a
  16 × 8 grid: for each block of 1024 rows it accumulates `graph · feat` over 8 blocks of 2048 contraction indices in a
  scratch buffer (zeroed at the first step), and at the eighth step multiplies the finished accumulator by `Wᵀ`
  (which the host transposes beforehand), adds the bias row and rectifies. At the ideal instance the casts to bf16 are the
  identity and a matrix product is the plain sum of products, so the only difference between the two programs is how the sum over
  the 16384 contraction indices is grouped: eight block sums added in order against one sum. Addition of extended reals is
  associative and commutative, so the two agree at every input and the precondition is never opened.

  The modules: `GraphConvSpec` states the layer as one function and the block-sum law; `BodyPieces` reads what each control
  case of the body leaves as the body's arithmetic terms; `PayloadsIdeal` reads those terms at an index; `BlockReads` places
  each pipeline block in the argument arrays; `AccumulatorFold` sums the accumulator over a row block's run; `LayerValue` shows
  the kernel's result array is the layer; `ReferenceLayer` shows the reference's result is the layer. Here the five claims are
  assembled: the kernels' frames and the two runs are generated, `preserves` has no entry, and `algebraic` sets the two runs
  side by side at the same function of arguments that agree.
-/
import proofs.«120181_j64029372449311_1_alg».proof.Defs
import proofs.«120181_j64029372449311_1_alg».proof.Proof.Gen.Kernel
import proofs.«120181_j64029372449311_1_alg».proof.Proof.Gen.Kernel.Skeleton
import proofs.«120181_j64029372449311_1_alg».proof.Proof.Gen.Kernel.Launch
import proofs.«120181_j64029372449311_1_alg».proof.Proof.Gen.Kernel.Points
import proofs.«120181_j64029372449311_1_alg».proof.Proof.Gen.Kernel.Frame
import proofs.«120181_j64029372449311_1_alg».proof.Proof.Gen.KernelIdeal
import proofs.«120181_j64029372449311_1_alg».proof.Proof.Gen.KernelIdeal.Skeleton
import proofs.«120181_j64029372449311_1_alg».proof.Proof.Gen.KernelIdeal.Launch
import proofs.«120181_j64029372449311_1_alg».proof.Proof.Gen.KernelIdeal.Points
import proofs.«120181_j64029372449311_1_alg».proof.Proof.Gen.KernelIdeal.Frame
import proofs.«120181_j64029372449311_1_alg».proof.Proof.Gen.ReferenceIdeal
import proofs.«120181_j64029372449311_1_alg».proof.Proof.Gen.Pre_finite_inputs
import proofs.«120181_j64029372449311_1_alg».proof.Proof.Gen.KernelIdeal.Value
import proofs.«120181_j64029372449311_1_alg».proof.Proof.Gen.ReferenceIdeal.Run
import proofs.«120181_j64029372449311_1_alg».proof.Proof.Gen.ReferenceIdeal.Read
import proofs.«120181_j64029372449311_1_alg».proof.Proof.LayerValue
import proofs.«120181_j64029372449311_1_alg».proof.Proof.ReferenceLayer
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the layer of their arguments, and the arguments agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Layer.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
